-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S4096x4096 : Shape := ⟨2, ![4096, 4096]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x8 .f32) (main_arg1 : FVec F S4096x8 .f32) (main_arg2 : FVec F S4096x4096 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x8 : Shape := ⟨2, ![4096, 8]⟩
abbrev S4096x4096 : Shape := ⟨2, ![4096, 4096]⟩
abbrev S1024x8 : Shape := ⟨2, ![1024, 8]⟩
abbrev S256x8 : Shape := ⟨2, ![256, 8]⟩
abbrev S256x4096 : Shape := ⟨2, ![256, 4096]⟩
abbrev S1024x4096 : Shape := ⟨2, ![1024, 4096]⟩
abbrev S1024 : Shape := ⟨1, ![1024]⟩
abbrev S1024x1 : Shape := ⟨2, ![1024, 1]⟩
abbrev S256 : Shape := ⟨1, ![256]⟩
abbrev S1024x256 : Shape := ⟨2, ![1024, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S4096x4096, .f32⟩
  | .hbm, ⟨3, _⟩ => ⟨S4096x4096, .f32⟩
  | .local _ .vmem, ⟨0, _⟩ => ⟨S1024x8, .f32⟩
  | .local _ .vmem, ⟨1, _⟩ => ⟨S1024x8, .f32⟩
  | .local _ .vmem, ⟨2, _⟩ => ⟨S256x8, .f32⟩
  | .local _ .vmem, ⟨3, _⟩ => ⟨S256x8, .f32⟩
  | .local _ .vmem, ⟨4, _⟩ => ⟨S256x4096, .f32⟩
  | .local _ .vmem, ⟨5, _⟩ => ⟨S256x4096, .f32⟩
  | .local _ .vmem, ⟨6, _⟩ => ⟨S1024x4096, .f32⟩
  | .local _ .vmem, ⟨7, _⟩ => ⟨S1024x4096, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_11 : BitVec 32 := 0#32
  let v24 : BitVec 1 := Scalar.cmpi .ne v23 c0_i32_11
  v24

def k0_cond2 (i : grid0.Coords) : BitVec 1 :=
  let arg1 : BitVec 32 := BitVec.ofNat 32 (i 1).val
  let c0_i32_12 : BitVec 32 := 0#32
  let v25 : BitVec 1 := Scalar.cmpi .ne arg1 c0_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x8_S1024x8_0_0 : ∀ a, (![0, 0] : Fin 2 → Nat) a + S1024x8.size a ≤ S1024x8.size a
  h_S1024x8 : 0 < S1024x8.numel
  inb_S256x8_S256x8_0_0 : ∀ a, (![0, 0] : Fin 2 → Nat) a + S256x8.size a ≤ S256x8.size a
  h_S256x8 : 0 < S256x8.numel
  reduces_S1024x8_S1024 : S1024x8.Reduces [1] S1024
  shapeCasts_S1024_S1024x1 : S1024.ShapeCasts S1024x1
  reduces_S256x8_S256 : S256x8.Reduces [1] S256
  broadcasts_S1024x1_S1024x256 : S1024x1.Broadcasts S1024x256
  shapeCasts_S256_S1x256 : S256.ShapeCasts S1x256
  broadcasts_S1x256_S1024x256 : S1x256.Broadcasts S1024x256
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  dot_S1024x8_S256x8_S1024x256_1_1_0_0_n_n_wf : DotDims.WF S1024x8 S256x8 S1024x256 [1] [1] [0] [0] [] []
  dot_S1024x256_S256x4096_S1024x4096_1_0_0_1_n_n_wf : DotDims.WF S1024x256 S256x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S4096x8.size a
  hwx0_0 : ∀ i : grid0.Coords, EltTy.bits .f32 = 32 ∨ (Rect.block (s := S4096x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S4096x8.size a
  hwx0_1 : ∀ i : grid0.Coords, EltTy.bits .f32 = 32 ∨ (Rect.block (s := S4096x8) S256x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .f32 = 32 ∨ (Rect.block (s := S4096x4096) S1024x4096.size (cc0_transform_3 i) (hinb0_3 i)).WholeWords (EltTy.packing .f32)

variable [Facts₀]

def dot_S1024x8_S256x8_S1024x256_1_1_0_0_n_n : DotDims S1024x8 S256x8 S1024x256 where
  lhsContracting := [1]
  rhsContracting := [1]
  lhsNonContracting := [0]
  rhsNonContracting := [0]
  lhsBatch := []
  rhsBatch := []
  wf := dot_S1024x8_S256x8_S1024x256_1_1_0_0_n_n_wf
def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4096x8 : Shape := ⟨2, ![4096, 8]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x4096 : Shape := ⟨2, ![8, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S4096x4096, .f32⟩
  | .hbm, ⟨3, _⟩ => ⟨S4096x8, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x8, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S4096x8_S4096_d1 : S4096x8.ReducesTo [1] S4096
  h_S_ : 0 < S_.numel
  bcast_S4096_S4096x1_0 : S4096.BroadcastsInDim S4096x1 (![0] : Fin 1 → Fin S4096x1.rank)
  transposes_S4096x8_S8x4096_1_0 : S4096x8.Transposes [1, 0] S8x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x8_S8x4096_S4096x4096_1_0_0_1_n_n_wf : DotDims.WF S4096x8 S8x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KBody.lean ====
/-
  The frame of the kernel program as printed: every run of the one pipelined kernel ends, faults nowhere and leaves the three argument arrays
  as launched — and what the output's staging buffer holds after every grid point.

  The grid is 4 × 16: point t has row block i = t / 16 and contraction block k = t % 16. The body computes this point's
  contribution from the three input blocks; at k = 0 it stores the contribution into the output's staging buffer, at
  k ≠ 0 it adds the contribution to what the buffer holds, which is what the point before left there (the output's block
  index does not move while k runs, so the buffer is neither written back nor refilled between). The two branch
  conditions are complementary, so the output's buffer is stored into at every point.

  The module is written for any float instance: it is used at the word level and at the ideal values alike.
-/
import proofs.«141656_g6064493822376_cont_9to1c4b_109_3_alg».proof.Proof.Gen.Kernel.Skeleton
import proofs.«141656_g6064493822376_cont_9to1c4b_109_3_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions over the grid -/

/-- The first branch (store the contribution) is taken exactly at the points with contraction block 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (add the contribution) is taken exactly at the other points. -/
theorem hcond2 : ∀ t : Fin cfg0.N, k0_cond2 (grid0.coords t) = 1#1 ↔ ¬t.val % 16 = 0 :=
  (by decide +kernel : ∀ t : Fin grid0.N, k0_cond2 (grid0.coords t) = 1#1 ↔ ¬t.val % 16 = 0)

/-- One of the two branches is taken whatever the contraction block: the output's buffer is stored into at every
    setting of the grid's coordinates. -/
theorem live3 : ∀ i : grid0.Coords, cfg0.idle 3 i = false := by
  intro i
  have h : ∀ k : Fin 16, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact h (i 1)

/-! ## The staging memrefs at a point -/

/-- One staging buffer of the output window, through which its contents are stated. -/
abbrev VO3 : View sig .tc .vmem S1024x4096 .f32 := (Memref.whole cc0_stg3_0 : Memref sig .tc .vmem S1024x4096 .f32).view
abbrev ms0 (t : Fin cfg0.N) : Memref sig .tc .vmem S1024x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4096 .f32 := win0_3.stage (cfg0.slots t 3)
abbrev hs3 (t : Fin cfg0.N) : (ms3 t).IsWhole := hstage0_3 ((cfg0.slots t 3).cast nbuf0_3)

/-! ## The body on any whole staging memrefs, branch by branch -/

set_option maxHeartbeats 1000000 in
/-- At a point with contraction block 0: from the three input buffers at their contents and the output's buffer at
    anything, the body runs to the inputs as they were and the output's buffer with one whole store written — the pieces
    are what the run finds. -/
noncomputable def runFirst (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : k0_cond1 i = 1#1) (hc2 : ¬k0_cond2 i = 1#1)
    (x0 : Vec F S1024x8 .f32) (x1 : Vec F S256x8 .f32) (x2 : Vec F S256x4096 .f32) :
    { L : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- At a point with contraction block ≠ 0: the same, the output's buffer found at the running contents `xo`. -/
noncomputable def runNext (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) :
    { L : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What each branch leaves in the output's buffer -/

/-- The first branch's one store covers the output's block. -/
theorem coverFirst (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : k0_cond1 i = 1#1) (hc2 : ¬k0_cond2 i = 1#1)
    (x0 : Vec F S1024x8 .f32) (x1 : Vec F S256x8 .f32) (x2 : Vec F S256x4096 .f32) (y : S1024x4096.Idx) :
    ∃ pc ∈ (runFirst c i arg2 harg2 arg3 harg3 arg4 harg4 arg5 harg5 hc1 hc2 x0 x1 x2).1, y ∈ pc.1.set :=
  View.cover_of_tiledL (runFirst c i arg2 harg2 arg3 harg3 arg4 harg4 arg5 harg5 hc1 hc2 x0 x1 x2).1 S1024x4096.size (by sl_kernel_rfl) y

/-- What the first branch leaves in the output's staging buffer: its store read back. -/
def outFirst (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : k0_cond1 i = 1#1) (hc2 : ¬k0_cond2 i = 1#1)
    (x0 : Vec F S1024x8 .f32) (x1 : Vec F S256x8 .f32) (x2 : Vec F S256x4096 .f32) : Vec F S1024x4096 .f32 :=
  VO3.read (Elt F) (VO3.writes (Elt F) VO3.junk (runFirst c i arg2 harg2 arg3 harg3 arg4 harg4 arg5 harg5 hc1 hc2 x0 x1 x2).1)

/-- The second branch's one store covers the output's block. -/
theorem coverNext (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) (y : S1024x4096.Idx) :
    ∃ pc ∈ (runNext c i arg2 harg2 arg3 harg3 arg4 harg4 arg5 harg5 hc1 hc2 x0 x1 x2 xo).1, y ∈ pc.1.set :=
  View.cover_of_tiledL (runNext c i arg2 harg2 arg3 harg3 arg4 harg4 arg5 harg5 hc1 hc2 x0 x1 x2 xo).1 S1024x4096.size (by sl_kernel_rfl) y

/-- What the second branch leaves in the output's staging buffer: its store read back. -/
def outNext (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) : Vec F S1024x4096 .f32 :=
  VO3.read (Elt F) (VO3.writes (Elt F) VO3.junk (runNext c i arg2 harg2 arg3 harg3 arg4 harg4 arg5 harg5 hc1 hc2 x0 x1 x2 xo).1)

/-! ## What the output's buffer holds after each point -/

/-- The accumulation: after point n the output's staging buffer holds what the branch taken at n leaves — the first
    branch at a point with contraction block 0, else the second over what point n - 1 left. -/
def outsAt (c : Dev nD) : (n : ℕ) → n < cfg0.N → Vec F S1024x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond1 ⟨0, hn⟩).mpr (Nat.zero_mod _)) (fun h => (hcond2 ⟨0, hn⟩).mp h (Nat.zero_mod _))
      (iblk m c 0 ⟨0, hn⟩) (iblk m c 1 ⟨0, hn⟩) (iblk m c 2 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond1 ⟨n + 1, hn⟩).mpr h0) (fun h => (hcond2 ⟨n + 1, hn⟩).mp h h0)
        (iblk m c 0 ⟨n + 1, hn⟩) (iblk m c 1 ⟨n + 1, hn⟩) (iblk m c 2 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond1 ⟨n + 1, hn⟩).mp h)) ((hcond2 ⟨n + 1, hn⟩).mpr h0)
        (iblk m c 0 ⟨n + 1, hn⟩) (iblk m c 1 ⟨n + 1, hn⟩) (iblk m c 2 ⟨n + 1, hn⟩) (outsAt c n (Nat.lt_of_succ_lt hn))

/-- At a point with contraction block 0: the first branch's contents. -/
theorem outsAt_first (c : Dev nD) (t : Fin cfg0.N) (h0 : t.val % 16 = 0) :
    outsAt m c t.val t.isLt = outFirst c (grid0.coords t) (ms0 t) (hs0 t) (ms1 t) (hs1 t) (ms2 t) (hs2 t) (ms3 t) (hs3 t)
      ((hcond1 t).mpr h0) (fun h => (hcond2 t).mp h h0) (iblk m c 0 t) (iblk m c 1 t) (iblk m c 2 t) := by
  obtain ⟨n, hn⟩ := t
  cases n with
  | zero => exact rfl
  | succ n => exact (dif_pos h0).trans rfl

/-- At any other point: the second branch's contents, over what the point before left. -/
theorem outsAt_next (c : Dev nD) (t : Fin cfg0.N) (h0 : ¬t.val % 16 = 0) :
    outsAt m c t.val t.isLt = outNext c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the output's at
    `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a point with contraction block ≠ 0 the output's current staging buffer holds what the body left at the point
    before: the point is not the first, the block was not written back between (that happens after contraction block 15
    only), and the buffer is stored into at every point. -/
theorem before_3_next (c : Dev nD) (t : Fin cfg0.N) (h0 : ¬t.val % 16 = 0) (d) :
    (dats m 0 c).before 3 t d = (outsAt m c (t.val - 1) (Nat.lt_of_le_of_lt (Nat.sub_le _ _) t.isLt)) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point's contraction block says which branch runs;
    at a later contraction block the output's buffer holds what the point before left; the invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 16 = 0
  · rw [outsAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((hcond1 t).mpr h0) (fun h => (hcond2 t).mp h h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [outsAt_next m c t h0]
    simp only [before_3_next m c t h0]
    unfold outNext
    iintro ⟨HΦ, Ho, ⟨%d0, H0⟩, ⟨%d1, H1⟩, ⟨%d2, H2⟩, ⟨%d3, H3⟩⟩
    iapply ((runNext c (grid0.coords t) _ _ _ _ _ _ _ _ (fun h => h0 ((hcond1 t).mp h)) ((hcond2 t).mpr h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverNext c _ _ _ _ _ _ _ _ _ _ _ _ _ _ _)

/-- The body obligation, at every point: the output window is stored into at every point, so its buffer is left at the
    stated contents. -/
theorem body_obligation (c : Dev nD) : BodyObligation (dats (F := F) m 0 c) (defs₀ (F := F)) Variants.none () Set.univ := fun t => by
  rw [bigSep_W0, bigSep_W0]
  have h3 : cfg0.idle 3 (cfg0.grid.coords t) = false := live3 _
  rw [h3]
  exact sound_body m c t

/-! ## The run and the frame -/

set_option backward.isDefEq.respectTransparency.types false in
/-- From any memory with zero counters every weakly fair execution of the program terminates, and every final state has
    every array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KIBody.lean ====
/-
  The frame of the idealized kernel program: every run of the one pipelined kernel ends, faults nowhere and leaves the three argument arrays
  as launched — and what the output's staging buffer holds after every grid point.

  The grid is 4 × 16: point t has row block i = t / 16 and contraction block k = t % 16. The body computes this point's
  contribution from the three input blocks; at k = 0 it stores the contribution into the output's staging buffer, at
  k ≠ 0 it adds the contribution to what the buffer holds, which is what the point before left there (the output's block
  index does not move while k runs, so the buffer is neither written back nor refilled between). The two branch
  conditions are complementary, so the output's buffer is stored into at every point.

  The module is written for any float instance: it is used at the word level and at the ideal values alike.
-/
import proofs.«141656_g6064493822376_cont_9to1c4b_109_3_alg».proof.Proof.Gen.KernelIdeal.Skeleton
import proofs.«141656_g6064493822376_cont_9to1c4b_109_3_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions over the grid -/

/-- The first branch (store the contribution) is taken exactly at the points with contraction block 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (add the contribution) is taken exactly at the other points. -/
theorem hcond2 : ∀ t : Fin cfg0.N, k0_cond2 (grid0.coords t) = 1#1 ↔ ¬t.val % 16 = 0 :=
  (by decide +kernel : ∀ t : Fin grid0.N, k0_cond2 (grid0.coords t) = 1#1 ↔ ¬t.val % 16 = 0)

/-- One of the two branches is taken whatever the contraction block: the output's buffer is stored into at every
    setting of the grid's coordinates. -/
theorem live3 : ∀ i : grid0.Coords, cfg0.idle 3 i = false := by
  intro i
  have h : ∀ k : Fin 16, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact h (i 1)

/-! ## The staging memrefs at a point -/

/-- One staging buffer of the output window, through which its contents are stated. -/
abbrev VO3 : View sig .tc .vmem S1024x4096 .f32 := (Memref.whole cc0_stg3_0 : Memref sig .tc .vmem S1024x4096 .f32).view
abbrev ms0 (t : Fin cfg0.N) : Memref sig .tc .vmem S1024x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4096 .f32 := win0_3.stage (cfg0.slots t 3)
abbrev hs3 (t : Fin cfg0.N) : (ms3 t).IsWhole := hstage0_3 ((cfg0.slots t 3).cast nbuf0_3)

/-! ## The body on any whole staging memrefs, branch by branch -/

set_option maxHeartbeats 1000000 in
/-- At a point with contraction block 0: from the three input buffers at their contents and the output's buffer at
    anything, the body runs to the inputs as they were and the output's buffer with one whole store written — the pieces
    are what the run finds. -/
noncomputable def runFirst (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : k0_cond1 i = 1#1) (hc2 : ¬k0_cond2 i = 1#1)
    (x0 : Vec F S1024x8 .f32) (x1 : Vec F S256x8 .f32) (x2 : Vec F S256x4096 .f32) :
    { L : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- At a point with contraction block ≠ 0: the same, the output's buffer found at the running contents `xo`. -/
noncomputable def runNext (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) :
    { L : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What each branch leaves in the output's buffer -/

/-- The first branch's one store covers the output's block. -/
theorem coverFirst (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : k0_cond1 i = 1#1) (hc2 : ¬k0_cond2 i = 1#1)
    (x0 : Vec F S1024x8 .f32) (x1 : Vec F S256x8 .f32) (x2 : Vec F S256x4096 .f32) (y : S1024x4096.Idx) :
    ∃ pc ∈ (runFirst c i arg2 harg2 arg3 harg3 arg4 harg4 arg5 harg5 hc1 hc2 x0 x1 x2).1, y ∈ pc.1.set :=
  View.cover_of_tiledL (runFirst c i arg2 harg2 arg3 harg3 arg4 harg4 arg5 harg5 hc1 hc2 x0 x1 x2).1 S1024x4096.size (by sl_kernel_rfl) y

/-- What the first branch leaves in the output's staging buffer: its store read back. -/
def outFirst (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : k0_cond1 i = 1#1) (hc2 : ¬k0_cond2 i = 1#1)
    (x0 : Vec F S1024x8 .f32) (x1 : Vec F S256x8 .f32) (x2 : Vec F S256x4096 .f32) : Vec F S1024x4096 .f32 :=
  VO3.read (Elt F) (VO3.writes (Elt F) VO3.junk (runFirst c i arg2 harg2 arg3 harg3 arg4 harg4 arg5 harg5 hc1 hc2 x0 x1 x2).1)

/-- The second branch's one store covers the output's block. -/
theorem coverNext (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) (y : S1024x4096.Idx) :
    ∃ pc ∈ (runNext c i arg2 harg2 arg3 harg3 arg4 harg4 arg5 harg5 hc1 hc2 x0 x1 x2 xo).1, y ∈ pc.1.set :=
  View.cover_of_tiledL (runNext c i arg2 harg2 arg3 harg3 arg4 harg4 arg5 harg5 hc1 hc2 x0 x1 x2 xo).1 S1024x4096.size (by sl_kernel_rfl) y

/-- What the second branch leaves in the output's staging buffer: its store read back. -/
def outNext (c : Dev nD) (i : grid0.Coords)
    (arg2 : Memref sig .tc .vmem S1024x8 .f32) (harg2 : arg2.IsWhole) (arg3 : Memref sig .tc .vmem S256x8 .f32) (harg3 : arg3.IsWhole)
    (arg4 : Memref sig .tc .vmem S256x4096 .f32) (harg4 : arg4.IsWhole) (arg5 : Memref sig .tc .vmem S1024x4096 .f32) (harg5 : arg5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) : Vec F S1024x4096 .f32 :=
  VO3.read (Elt F) (VO3.writes (Elt F) VO3.junk (runNext c i arg2 harg2 arg3 harg3 arg4 harg4 arg5 harg5 hc1 hc2 x0 x1 x2 xo).1)

/-! ## What the output's buffer holds after each point -/

/-- The accumulation: after point n the output's staging buffer holds what the branch taken at n leaves — the first
    branch at a point with contraction block 0, else the second over what point n - 1 left. -/
def outsAt (c : Dev nD) : (n : ℕ) → n < cfg0.N → Vec F S1024x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond1 ⟨0, hn⟩).mpr (Nat.zero_mod _)) (fun h => (hcond2 ⟨0, hn⟩).mp h (Nat.zero_mod _))
      (iblk m c 0 ⟨0, hn⟩) (iblk m c 1 ⟨0, hn⟩) (iblk m c 2 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond1 ⟨n + 1, hn⟩).mpr h0) (fun h => (hcond2 ⟨n + 1, hn⟩).mp h h0)
        (iblk m c 0 ⟨n + 1, hn⟩) (iblk m c 1 ⟨n + 1, hn⟩) (iblk m c 2 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond1 ⟨n + 1, hn⟩).mp h)) ((hcond2 ⟨n + 1, hn⟩).mpr h0)
        (iblk m c 0 ⟨n + 1, hn⟩) (iblk m c 1 ⟨n + 1, hn⟩) (iblk m c 2 ⟨n + 1, hn⟩) (outsAt c n (Nat.lt_of_succ_lt hn))

/-- At a point with contraction block 0: the first branch's contents. -/
theorem outsAt_first (c : Dev nD) (t : Fin cfg0.N) (h0 : t.val % 16 = 0) :
    outsAt m c t.val t.isLt = outFirst c (grid0.coords t) (ms0 t) (hs0 t) (ms1 t) (hs1 t) (ms2 t) (hs2 t) (ms3 t) (hs3 t)
      ((hcond1 t).mpr h0) (fun h => (hcond2 t).mp h h0) (iblk m c 0 t) (iblk m c 1 t) (iblk m c 2 t) := by
  obtain ⟨n, hn⟩ := t
  cases n with
  | zero => exact rfl
  | succ n => exact (dif_pos h0).trans rfl

/-- At any other point: the second branch's contents, over what the point before left. -/
theorem outsAt_next (c : Dev nD) (t : Fin cfg0.N) (h0 : ¬t.val % 16 = 0) :
    outsAt m c t.val t.isLt = outNext c (grid0.coords t) (ms0 t) (hs0 t) (ms1 t) (hs1 t) (ms2 t) (hs2 t) (ms3 t) (hs3 t)
      (fun h => h0 ((hcond1 t).mp h)) ((hcond2 t).mpr h0) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the output's at
    `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a point with contraction block ≠ 0 the output's current staging buffer holds what the body left at the point
    before: the point is not the first, the block was not written back between (that happens after contraction block 15
    only), and the buffer is stored into at every point. -/
theorem before_3_next (c : Dev nD) (t : Fin cfg0.N) (h0 : ¬t.val % 16 = 0) (d) :
    (dats m 0 c).before 3 t d = (outsAt m c (t.val - 1) (Nat.lt_of_le_of_lt (Nat.sub_le _ _) t.isLt)) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point's contraction block says which branch runs;
    at a later contraction block the output's buffer holds what the point before left; the invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 16 = 0
  · rw [outsAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((hcond1 t).mpr h0) (fun h => (hcond2 t).mp h h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [outsAt_next m c t h0]
    simp only [before_3_next m c t h0]
    unfold outNext
    iintro ⟨HΦ, Ho, ⟨%d0, H0⟩, ⟨%d1, H1⟩, ⟨%d2, H2⟩, ⟨%d3, H3⟩⟩
    iapply ((runNext c (grid0.coords t) _ _ _ _ _ _ _ _ (fun h => h0 ((hcond1 t).mp h)) ((hcond2 t).mpr h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverNext c _ _ _ _ _ _ _ _ _ _ _ _ _ _ _)

/-- The body obligation, at every point: the output window is stored into at every point, so its buffer is left at the
    stated contents. -/
theorem body_obligation (c : Dev nD) : BodyObligation (dats (F := F) m 0 c) (defs₀ (F := F)) Variants.none () Set.univ := fun t => by
  rw [bigSep_W0, bigSep_W0]
  have h3 : cfg0.idle 3 (cfg0.grid.coords t) = false := live3 _
  rw [h3]
  exact sound_body m c t

/-! ## The run and the frame -/

set_option backward.isDefEq.respectTransparency.types false in
/-- From any memory with zero counters every weakly fair execution of the program terminates, and every final state has
    every array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KIPieces.lean ====
/-
  What each branch of the body leaves in the output's staging buffer, as a value: the one whole store's payload.

  At a point with contraction block 0 the buffer is left at the point's contribution (a function of the three input
  blocks); at any other point at the contents found there plus the contribution. The loads read whole buffers and the
  store covers the whole block, so reading the store back gives the payload itself.
-/
import proofs.«141656_g6064493822376_cont_9to1c4b_109_3_alg».proof.Proof.KIBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The first branch leaves the point's contribution. -/
theorem outFirst_eq (c : Dev nD) (i : grid0.Coords)
    (a2 : Memref sig .tc .vmem S1024x8 .f32) (h2 : a2.IsWhole) (a3 : Memref sig .tc .vmem S256x8 .f32) (h3 : a3.IsWhole)
    (a4 : Memref sig .tc .vmem S256x4096 .f32) (h4 : a4.IsWhole) (a5 : Memref sig .tc .vmem S1024x4096 .f32) (h5 : a5.IsWhole)
    (hc1 : k0_cond1 i = 1#1) (hc2 : ¬k0_cond2 i = 1#1)
    (x0 : Vec F S1024x8 .f32) (x1 : Vec F S256x8 .f32) (x2 : Vec F S256x4096 .f32) :
    outFirst c i a2 h2 a3 h3 a4 h4 a5 h5 hc1 hc2 x0 x1 x2 = k0_pay1 x0 x1 x2 := by
  unfold outFirst
  rw [View.read_writes_eq_canon _ _ _ (coverFirst c i a2 h2 a3 h3 a4 h4 a5 h5 hc1 hc2 x0 x1 x2)]
  unfold runFirst
  dsimp only
  sl_unfold_words
  rw [View.canon_unit_zero hz]
  simp only [View.readAt_eq_ld, h2.read_unread, h3.read_unread, h4.read_unread, View.ld_unit_zero (S := S1024x8) hz,
    View.ld_unit_zero (S := S256x8) hz, View.ld_unit_zero (S := S256x4096) hz]

/-- The second branch leaves the contents it found plus the point's contribution. -/
theorem outNext_eq (c : Dev nD) (i : grid0.Coords)
    (a2 : Memref sig .tc .vmem S1024x8 .f32) (h2 : a2.IsWhole) (a3 : Memref sig .tc .vmem S256x8 .f32) (h3 : a3.IsWhole)
    (a4 : Memref sig .tc .vmem S256x4096 .f32) (h4 : a4.IsWhole) (a5 : Memref sig .tc .vmem S1024x4096 .f32) (h5 : a5.IsWhole)
    (hc1 : ¬k0_cond1 i = 1#1) (hc2 : k0_cond2 i = 1#1)
    (x0 : Vec F S1024x8 .f32) (x1 : Vec F S256x8 .f32) (x2 : Vec F S256x4096 .f32) (xo : Vec F S1024x4096 .f32) :
    outNext c i a2 h2 a3 h3 a4 h4 a5 h5 hc1 hc2 x0 x1 x2 xo = k0_pay2 x0 x1 x2 xo := by
  unfold outNext
  rw [View.read_writes_eq_canon _ _ _ (coverNext c i a2 h2 a3 h3 a4 h4 a5 h5 hc1 hc2 x0 x1 x2 xo)]
  unfold runNext
  dsimp only
  sl_unfold_words
  rw [View.canon_unit_zero hz]
  simp only [View.readAt_eq_ld, h2.read_unread, h3.read_unread, h4.read_unread, h5.read_unread, View.ld_unit_zero (S := S1024x8) hz,
    View.ld_unit_zero (S := S256x8) hz, View.ld_unit_zero (S := S256x4096) hz, View.ld_unit_zero (S := S1024x4096) hz]

end Cert.KernelIdeal.Body

end
-- ==== Proof.Spec.lean ====
/-
  The function both programs compute, entry by entry, on the extended reals.

  For row arrays x ([n, 8]) and g ([c, 8]) the squared distance between row r of x and row j of g is written the way
  both programs expand it,  |x_r|² - 2·(x_r · g_j) + |g_j|²,  clipped below at zero, and the kernel entry is
  exp(-½ · that). The result at (r, v) is the sum over the rows j of g of the kernel entry (r, j) times C (j, v).
  The three scalars 2, 0 and -½ are kept as the binary words both programs print; only the zero word is ever evaluated.
-/
import Idealize.ShloMosaic.PureOps.Ideal
import Idealize.ShloMosaic.Lib.ValueIdx

noncomputable section

open scoped BigOperators

namespace Cert.Spec

open Idealize.ShloMosaic Idealize.ShloMosaic.ValueIdx

variable {n c : Nat}

/-- The squared length of row r:  ∑ d < 8, x (r, d)². -/
def sqn (x : (⟨2, ![n, 8]⟩ : Shape).Idx → EReal) (r : Fin n) : EReal := ∑ d : Fin 8, x (ix2 r d) * x (ix2 r d)

/-- The inner product of row r of x with row j of g:  ∑ d < 8, x (r, d) · g (j, d). -/
def cross (x : (⟨2, ![n, 8]⟩ : Shape).Idx → EReal) (g : (⟨2, ![c, 8]⟩ : Shape).Idx → EReal) (r : Fin n) (j : Fin c) : EReal :=
  ∑ d : Fin 8, x (ix2 r d) * g (ix2 j d)

/-- The kernel entry (r, j):  exp(-½ · max(|x_r|² - 2·(x_r · g_j) + |g_j|², 0)). -/
def kst (x : (⟨2, ![n, 8]⟩ : Shape).Idx → EReal) (g : (⟨2, ![c, 8]⟩ : Shape).Idx → EReal) (r : Fin n) (j : Fin c) : EReal :=
  Ideal.exp (Ideal.ofBits .f32 0xBF000000#32
    * max (sqn x r - Ideal.ofBits .f32 0x40000000#32 * cross x g r j + sqn g j) (Ideal.ofBits .f32 0x00000000#32))

/-- The kernel entry depends only on the two rows it names: rows that agree entry by entry give the same value. -/
theorem kst_congr {n' c' : Nat} (x : (⟨2, ![n, 8]⟩ : Shape).Idx → EReal) (g : (⟨2, ![c, 8]⟩ : Shape).Idx → EReal)
    (x' : (⟨2, ![n', 8]⟩ : Shape).Idx → EReal) (g' : (⟨2, ![c', 8]⟩ : Shape).Idx → EReal)
    (r : Fin n) (j : Fin c) (r' : Fin n') (j' : Fin c')
    (hx : ∀ d : Fin 8, x (ix2 r d) = x' (ix2 r' d)) (hg : ∀ d : Fin 8, g (ix2 j d) = g' (ix2 j' d)) :
    kst x g r j = kst x' g' r' j' := by
  unfold kst sqn cross
  simp only [hx, hg]

/-- The result: entry (r, v) is  ∑ j < 4096, kst x g r j · C (j, v). -/
def G (x g : (⟨2, ![4096, 8]⟩ : Shape).Idx → EReal) (C : (⟨2, ![4096, 4096]⟩ : Shape).Idx → EReal) :
    (⟨2, ![4096, 4096]⟩ : Shape).Idx → EReal :=
  fun i => ∑ j : Fin 4096, kst x g (i 0) j * C (ix2 j (i 1))

end Cert.Spec

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.PayVal.lean ====
/-
  The two values a grid point stores, read entry by entry.

  A grid point holds a block x0 of 1024 rows of x, a block x1 of 256 rows of g and the matching 256 rows x2 of C. From
  them it forms the squared lengths of the rows of x0 and of x1 (sums over the 8 columns), the inner products of every
  row of x0 with every row of x1 (a product contracting the 8 columns of both), the [1024, 256] block of kernel entries
  exp(-½ · max(|x_r|² - 2·(x_r · g_j) + |g_j|², 0)), and the product of that block with x2. Entry (p, q) of this product
  is  ∑ j < 256, kst x0 x1 p j · x2 (j, q)  with `kst` the specification's kernel entry; the second stored value adds
  the entry (p, q) of the block already held.

  The steps: a column of 1024 squared lengths spread along 256 columns reads its row's entry; a row of 256 squared
  lengths spread along 1024 rows reads its column's entry; a sum over the 8 columns read as a sum over Fin 8; the two
  products read as plain sums over the shared axis.
-/
import proofs.«141656_g6064493822376_cont_9to1c4b_109_3_alg».proof.Proof.Gen.KernelIdeal.Skeleton
import proofs.«141656_g6064493822376_cont_9to1c4b_109_3_alg».proof.Proof.Spec
import proofs.«141656_g6064493822376_cont_9to1c4b_109_3_alg».proof.Proof.LibDotRows
import proofs.«141656_g6064493822376_cont_9to1c4b_109_3_alg».proof.Proof.LibDotRowsCols
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayVal

open Cert.KernelIdeal Cert.KernelIdeal.Gen Idealize.ShloMosaic Idealize.ShloMosaic.ValueIdx

/-! ## A column of values: the cast [a] → [a, 1] and the spread [a, 1] → [a, b] -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array spread to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A sum over the 8 columns -/

/-- The sum over the 8 columns of an `[n, 8]` array, at row `r`, is  ∑ d < 8, v (r, d). -/
theorem rowsum_apply {n : ℕ} (v : FVec Ideal ⟨2, ![n, 8]⟩ .f32) (h : Shape.Reduces ⟨2, ![n, 8]⟩ [1] ⟨1, ![n]⟩)
    (hφ : FKind.Formats .f32) (hacc : (0x00000000#32 : BitVec 32) = FKind.add.neutral .f32 hφ) (r : Fin n) :
    multiReduction (F := Ideal) .add [1] ⟨1, ![n]⟩ v 0x00000000#32 h hφ hacc (ix1 r) = ∑ d : Fin 8, v (ix2 r d) := by
  refine (Ideal.multiReduction_add_single v _ h hφ hacc (ix1 r)).trans ?_
  refine Finset.sum_congr rfl fun d _ => congrArg v ?_
  funext a
  match a with
  | ⟨0, _⟩ => rfl
  | ⟨1, _⟩ => rfl

/-! ## The three ingredients of a kernel entry -/

/-- The squared lengths of the rows of x0, as a column spread along the 256 columns: entry (p, j) is |x0_p|². -/
theorem xx_apply (x0 : FVec Ideal S1024x8 .f32) (p : Fin 1024) (j : Fin 256) :
    broadcastTo S1024x256
        (shapeCast S1024x1
          (multiReduction (F := Ideal) .add [1] S1024 (mulf x0 x0) 0x00000000#32 reduces_S1024x8_S1024 (.inl rfl) rfl)
          shapeCasts_S1024_S1024x1)
        broadcasts_S1024x1_S1024x256 (ix2 p j)
      = Cert.Spec.sqn x0 p :=
  (broadcastTo_a1_ab_apply _ _ p j).trans
    ((shapeCast_a_a1_apply _ _ p 0).trans (rowsum_apply (mulf x0 x0) _ _ _ p))

/-- The squared lengths of the rows of x1, as a row spread along the 1024 rows: entry (p, j) is |x1_j|². -/
theorem gg_apply (x1 : FVec Ideal S256x8 .f32) (p : Fin 1024) (j : Fin 256) :
    broadcastTo S1024x256
        (shapeCast S1x256
          (multiReduction (F := Ideal) .add [1] S256 (mulf x1 x1) 0x00000000#32 reduces_S256x8_S256 (.inl rfl) rfl)
          shapeCasts_S256_S1x256)
        broadcasts_S1x256_S1024x256 (ix2 p j)
      = Cert.Spec.sqn x1 j :=
  (broadcastTo_1b_ab_apply _ _ p j).trans
    ((shapeCast_a_1a_apply _ _ 0 j).trans (rowsum_apply (mulf x1 x1) _ _ _ j))

/-- The product of x0 with the transpose of x1: entry (p, j) is the inner product of row p of x0 with row j of x1. -/
theorem xg_apply (x0 : FVec Ideal S1024x8 .f32) (x1 : FVec Ideal S256x8 .f32) (p : Fin 1024) (j : Fin 256) :
    matmul (F := Ideal) dot_S1024x8_S256x8_S1024x256_1_1_0_0_n_n none x0 x1
        (constant (F := Ideal) S1024x256 .f32 0x00000000#32) (ix2 p j)
      = Cert.Spec.cross x0 x1 p j :=
  Cert.Lib.DotRows.RowsRows.matmul_zero_apply (d := dot_S1024x8_S256x8_S1024x256_1_1_0_0_n_n)
    ⟨rfl, rfl, rfl, rfl, rfl, rfl⟩ none x0 x1 (ix2 p j)

/-! ## The block of kernel entries -/

/-- The [1024, 256] block of kernel entries a grid point forms from its two blocks of rows. -/
def kt (x0 : FVec Ideal S1024x8 .f32) (x1 : FVec Ideal S256x8 .f32) : FVec Ideal S1024x256 .f32 :=
  exp (mulf (broadcast S1024x256 (Scalar.ofBits (F := Ideal) .f32 0xBF000000#32))
    (maximumf
      (addf
        (subf
          (broadcastTo S1024x256
            (shapeCast S1024x1
              (multiReduction (F := Ideal) .add [1] S1024 (mulf x0 x0) 0x00000000#32 reduces_S1024x8_S1024 (.inl rfl) rfl)
              shapeCasts_S1024_S1024x1)
            broadcasts_S1024x1_S1024x256)
          (mulf (broadcast S1024x256 (Scalar.ofBits (F := Ideal) .f32 0x40000000#32))
            (matmul (F := Ideal) dot_S1024x8_S256x8_S1024x256_1_1_0_0_n_n none x0 x1
              (constant (F := Ideal) S1024x256 .f32 0x00000000#32))))
        (broadcastTo S1024x256
          (shapeCast S1x256
            (multiReduction (F := Ideal) .add [1] S256 (mulf x1 x1) 0x00000000#32 reduces_S256x8_S256 (.inl rfl) rfl)
            shapeCasts_S256_S1x256)
          broadcasts_S1x256_S1024x256))
      (broadcast S1024x256 (Scalar.ofBits (F := Ideal) .f32 0x00000000#32))))

/-- Entry (p, j) of the block is the specification's kernel entry of row p of x0 and row j of x1. -/
theorem kt_apply (x0 : FVec Ideal S1024x8 .f32) (x1 : FVec Ideal S256x8 .f32) (p : Fin 1024) (j : Fin 256) :
    kt x0 x1 (ix2 p j) = Cert.Spec.kst x0 x1 p j := by
  unfold kt Cert.Spec.kst
  rw [← xx_apply x0 p j, ← xg_apply x0 x1 p j, ← gg_apply x1 p j]
  rfl

/-- The first stored value is the product of the block of kernel entries with the block of C. -/
theorem pay1_eq (x0 : Vec Ideal S1024x8 .f32) (x1 : Vec Ideal S256x8 .f32) (x2 : Vec Ideal S256x4096 .f32) :
    Gen.k0_pay1 (F := Ideal) x0 x1 x2
      = matmul (F := Ideal) (φ₂ := .f32) dot_S1024x256_S256x4096_S1024x4096_1_0_0_1_n_n none (kt x0 x1) x2
          (constant (F := Ideal) S1024x4096 .f32 0x00000000#32) := rfl

/-! ## The two stored values at an entry -/

/-- Entry (p, q) of the first stored value:  ∑ j < 256, kst x0 x1 p j · x2 (j, q). -/
theorem pay1_apply (x0 : Vec Ideal S1024x8 .f32) (x1 : Vec Ideal S256x8 .f32) (x2 : Vec Ideal S256x4096 .f32)
    (p : Fin 1024) (q : Fin 4096) :
    Gen.k0_pay1 (F := Ideal) x0 x1 x2 (ix2 p q) = ∑ j : Fin 256, Cert.Spec.kst x0 x1 p j * x2 (ix2 j q) := by
  rw [pay1_eq]
  refine (Cert.Lib.DotRowsCols.RowsCols.matmul_zero_apply (d := dot_S1024x256_S256x4096_S1024x4096_1_0_0_1_n_n)
    (φ₂ := .f32) ⟨rfl, rfl, rfl, rfl, rfl, rfl⟩ none (kt x0 x1) x2 (ix2 p q)).trans ?_
  exact Finset.sum_congr rfl fun j _ => congrArg (· * x2 (ix2 j q)) (kt_apply x0 x1 p j)

/-- Entry (p, q) of the second stored value: the entry already held plus the same sum. -/
theorem pay2_apply (x0 : Vec Ideal S1024x8 .f32) (x1 : Vec Ideal S256x8 .f32) (x2 : Vec Ideal S256x4096 .f32)
    (xo : Vec Ideal S1024x4096 .f32) (p : Fin 1024) (q : Fin 4096) :
    Gen.k0_pay2 (F := Ideal) x0 x1 x2 xo (ix2 p q)
      = xo (ix2 p q) + ∑ j : Fin 256, Cert.Spec.kst x0 x1 p j * x2 (ix2 j q) := by
  unfold Gen.k0_pay2
  show shapeCast S1024x4096 xo shapeCasts_S1024x4096_S1024x4096 (ix2 p q) + Gen.k0_pay1 (F := Ideal) x0 x1 x2 (ix2 p q) = _
  rw [shapeCast_self, pay1_apply]

end Cert.KernelIdeal.PayVal

end
-- ==== Proof.LibSumBlocks.lean ====
/-
  Two facts about finite sums used to read an accumulator that is filled block by block.

  * A sum over nb·sz entries is the sum over the nb blocks of the sums over each block's sz entries (entry sz·j + r is
    entry r of block j).
  * An accumulator that is reset at every P-th step and otherwise adds to what the step before left — o t = S t when
    P divides t, o t = o (t - 1) + S t otherwise — holds after step t the sum of S over the steps since the last reset.
-/
import Mathlib.Data.EReal.Basic
import Mathlib.Algebra.BigOperators.Fin
import Mathlib.Algebra.BigOperators.Intervals

namespace Cert.SumLib

open scoped BigOperators

/-- A sum over nb·sz entries, block by block: entry sz·j + r is entry r of block j. -/
theorem sum_blocks {M : Type} [AddCommMonoid M] (nb sz : ℕ) (f : Fin (nb * sz) → M)
    (hb : ∀ (j : Fin nb) (r : Fin sz), sz * j.val + r.val < nb * sz) :
    ∑ n : Fin (nb * sz), f n = ∑ j : Fin nb, ∑ r : Fin sz, f ⟨sz * j.val + r.val, hb j r⟩ := by
  rw [← (finProdFinEquiv (m := nb) (n := sz)).sum_comp f, Fintype.sum_prod_type]
  refine Finset.sum_congr rfl fun j _ => Finset.sum_congr rfl fun r _ => congrArg f (Fin.ext ?_)
  simp [finProdFinEquiv, Nat.add_comm]

/-- The sum over 8192 rows as the sum over 16 blocks of 512 rows. -/
theorem sum_16x512 {M : Type} [AddCommMonoid M] (f : Fin 8192 → M) :
    ∑ n : Fin 8192, f n = ∑ j : Fin 16, ∑ r : Fin 512, f ⟨512 * j.val + r.val, by have := j.isLt; have := r.isLt; omega⟩ :=
  sum_blocks 16 512 f fun j r => by have := j.isLt; have := r.isLt; omega

/-- The sum over 8192 rows as the sum over 8 blocks of 1024 rows. -/
theorem sum_8x1024 {M : Type} [AddCommMonoid M] (f : Fin 8192 → M) :
    ∑ n : Fin 8192, f n = ∑ j : Fin 8, ∑ r : Fin 1024, f ⟨1024 * j.val + r.val, by have := j.isLt; have := r.isLt; omega⟩ :=
  sum_blocks 8 1024 f fun j r => by have := j.isLt; have := r.isLt; omega

/-- One step back inside a block: when P does not divide t, the step before has the remainder one less. -/
theorem pred_mod (P : ℕ) (hP : 0 < P) (t : ℕ) (hz : t % P ≠ 0) : (t - 1) % P = t % P - 1 := by
  have hdm := Nat.div_add_mod t P
  have hlt := Nat.mod_lt t hP
  have e : t - 1 = (t % P - 1) + P * (t / P) := by omega
  rw [e, Nat.add_mul_mod_self_left, Nat.mod_eq_of_lt (by omega)]

/-- The closed form below a bound, by induction on the step: a reset step holds its own term; any other step adds
    its term to the sum the step before holds, which has the same block start. -/
theorem acc_closed_aux {M : Type} [AddCommMonoid M] (P N : ℕ) (hP : 0 < P) (o S : ℕ → M)
    (h0 : ∀ t, t < N → t % P = 0 → o t = S t) (h1 : ∀ t, t < N → t % P ≠ 0 → o t = o (t - 1) + S t) (t : ℕ) (ht : t < N) :
    o t = ∑ j ∈ Finset.range (t % P + 1), S (t - t % P + j) := by
  induction t using Nat.strong_induction_on with
  | _ t ih =>
    by_cases hz : t % P = 0
    · rw [h0 t ht hz, hz]; simp
    · have hle : t % P ≤ t := Nat.mod_le t P
      have hm := pred_mod P hP t hz
      have e1 : t % P - 1 + 1 = t % P := by omega
      have e2 : t - 1 - (t % P - 1) = t - t % P := by omega
      have e3 : t - t % P + t % P = t := Nat.sub_add_cancel hle
      rw [h1 t ht hz, ih (t - 1) (by omega) (by omega), hm, Finset.sum_range_succ _ (t % P), e1, e2, e3]

/-- The accumulator after step t: the sum of the steps' terms since the last reset (steps t - t % P … t). -/
theorem acc_closed {M : Type} [AddCommMonoid M] (P : ℕ) (hP : 0 < P) (o S : ℕ → M) (h0 : ∀ t, t % P = 0 → o t = S t)
    (h1 : ∀ t, t % P ≠ 0 → o t = o (t - 1) + S t) (t : ℕ) :
    o t = ∑ j ∈ Finset.range (t % P + 1), S (t - t % P + j) :=
  acc_closed_aux P (t + 1) hP o S (fun t _ => h0 t) (fun t _ => h1 t) t (Nat.lt_succ_self t)

/-- The same for a run of steps bounded by N (the accumulator is only defined below N). -/
theorem acc_closed_lt {M : Type} [AddCommMonoid M] (P N : ℕ) (hP : 0 < P) (o S : ℕ → M) (h0 : ∀ t, t < N → t % P = 0 → o t = S t)
    (h1 : ∀ t, t < N → t % P ≠ 0 → o t = o (t - 1) + S t) (t : ℕ) (ht : t < N) :
    o t = ∑ j ∈ Finset.range (t % P + 1), S (t - t % P + j) :=
  acc_closed_aux P N hP o S h0 h1 t ht

end Cert.SumLib
-- ==== Proof.AccVal.lean ====
/-
  The idealized kernel's result array is the specification's function of the three argument arrays.

  Point t = 16·i + k of the grid holds rows 1024·i … 1024·i + 1023 of x, rows 256·k … 256·k + 255 of g and the same rows
  of C. Its contribution at block entry (p, q) is  ∑ j < 256, kst x g (1024·i + p) (256·k + j) · C (256·k + j, q):  the
  kernel entry depends only on the two rows it names, so the blocks' rows may be read in the whole arrays. The output's
  buffer is reset to the contribution at k = 0 and adds each later contribution to what it holds, so after k = 15 it
  holds the sum of the sixteen contributions, which is the sum over all 4096 rows of g taken sixteen blocks of 256 at a
  time. Only then is the buffer written back, to rows 1024·i … of the result; the four row blocks tile the result.
  Addition of extended reals is commutative and associative, which is all the regrouping uses.
-/
import proofs.«141656_g6064493822376_cont_9to1c4b_109_3_alg».proof.Proof.KIPieces
import proofs.«141656_g6064493822376_cont_9to1c4b_109_3_alg».proof.Proof.PayVal
import proofs.«141656_g6064493822376_cont_9to1c4b_109_3_alg».proof.Proof.Spec
import proofs.«141656_g6064493822376_cont_9to1c4b_109_3_alg».proof.Proof.LibSumBlocks
import Idealize.ShloMosaic.Lib.Pipeline.Value
import Idealize.ShloMosaic.Lib.ValueIdx

set_option maxRecDepth 16384

noncomputable section

open scoped BigOperators

namespace Cert.KernelIdeal.AccVal

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays and the blocks, at their literal types -/

abbrev xarr (c : Dev nD) : Vec Ideal S4096x8 .f32 := V m c main_arg0
abbrev garr (c : Dev nD) : Vec Ideal S4096x8 .f32 := V m c main_arg1
abbrev carr (c : Dev nD) : Vec Ideal S4096x4096 .f32 := V m c main_arg2
abbrev xblk (c : Dev nD) (t : Fin cfg0.N) : Vec Ideal S1024x8 .f32 := iblk m c 0 t
abbrev gblk (c : Dev nD) (t : Fin cfg0.N) : Vec Ideal S256x8 .f32 := iblk m c 1 t
abbrev cblk (c : Dev nD) (t : Fin cfg0.N) : Vec Ideal S256x4096 .f32 := iblk m c 2 t

/-- The block indices over the grid: x and the result move with the row block t / 16, g and C with the contraction
    block t % 16; no window moves along its second axis. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0 :=
  (by decide +kernel : ∀ t : Fin grid0.N, _)

/-- Row p of the block of x at point t is row 1024·(t / 16) + p of x. -/
theorem xblk_apply (c : Dev nD) (t : Fin cfg0.N) (p : Fin 1024) (d : Fin 8) (r : Fin 4096)
    (hr : r.val = 1024 * (t.val / 16) + p.val) : xblk m c t (ix2 p d) = xarr m c (ix2 r d) := by
  obtain ⟨e0, e1, -⟩ := idx_facts t
  show iblk m c 0 t (ix2 p d) = V m c main_arg0 (ix2 r d)
  unfold iblk
  rw [View.read_apply]
  show V m c main_arg0 _ = V m c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 8 + 1 * d.val = d.val; rw [e1]; omega

/-- Row j of the block of g at point t is row 256·(t % 16) + j of g. -/
theorem gblk_apply (c : Dev nD) (t : Fin cfg0.N) (j : Fin 256) (d : Fin 8) (n : Fin 4096)
    (hn : n.val = 256 * (t.val % 16) + j.val) : gblk m c t (ix2 j d) = garr m c (ix2 n d) := by
  obtain ⟨-, -, e2, e3, -⟩ := idx_facts t
  show iblk m c 1 t (ix2 j d) = V m c main_arg1 (ix2 n d)
  unfold iblk
  rw [View.read_apply]
  show V m c main_arg1 _ = V m c main_arg1 _
  congr 1
  funext a
  apply Fin.ext
  match a with
  | ⟨0, _⟩ => show win0_1.index t (0 : Fin 2) * 256 + 1 * j.val = n.val; rw [e2, hn]; omega
  | ⟨1, _⟩ => show win0_1.index t (1 : Fin 2) * 8 + 1 * d.val = d.val; rw [e3]; omega

/-- Row j of the block of C at point t is row 256·(t % 16) + j of C. -/
theorem cblk_apply (c : Dev nD) (t : Fin cfg0.N) (j : Fin 256) (q : Fin 4096) (n : Fin 4096)
    (hn : n.val = 256 * (t.val % 16) + j.val) : cblk m c t (ix2 j q) = carr m c (ix2 n q) := by
  obtain ⟨-, -, -, -, e4, e5, -⟩ := idx_facts t
  show iblk m c 2 t (ix2 j q) = V m c main_arg2 (ix2 n q)
  unfold iblk
  rw [View.read_apply]
  show V m c main_arg2 _ = V m c main_arg2 _
  congr 1
  funext a
  apply Fin.ext
  match a with
  | ⟨0, _⟩ => show win0_2.index t (0 : Fin 2) * 256 + 1 * j.val = n.val; rw [e4, hn]; omega
  | ⟨1, _⟩ => show win0_2.index t (1 : Fin 2) * 4096 + 1 * q.val = q.val; rw [e5]; omega

/-! ## One point's contribution -/

/-- The contribution of point s at block entry (p, q), over the point's blocks. -/
def contrib (c : Dev nD) (s : Fin cfg0.N) (p : Fin 1024) (q : Fin 4096) : EReal :=
  ∑ j : Fin 256, Cert.Spec.kst (xblk m c s) (gblk m c s) p j * cblk m c s (ix2 j q)

/-- The same over the whole arrays: row r = 1024·(s / 16) + p of x against rows 256·(s % 16) + j of g and C. -/
theorem contrib_eq (c : Dev nD) (s : Fin cfg0.N) (p : Fin 1024) (q : Fin 4096) (r : Fin 4096)
    (hr : r.val = 1024 * (s.val / 16) + p.val) :
    contrib m c s p q = ∑ j : Fin 256,
      Cert.Spec.kst (xarr m c) (garr m c) r ⟨256 * (s.val % 16) + j.val, by have := j.isLt; omega⟩
        * carr m c (ix2 ⟨256 * (s.val % 16) + j.val, by have := j.isLt; omega⟩ q) := by
  unfold contrib
  refine Finset.sum_congr rfl fun j _ => ?_
  exact congrArg₂ (· * ·)
    (Cert.Spec.kst_congr (xblk m c s) (gblk m c s) (xarr m c) (garr m c) p j r ⟨256 * (s.val % 16) + j.val, by have := j.isLt; omega⟩
      (fun d => xblk_apply m c s p d r hr) (fun d => gblk_apply m c s j d _ rfl))
    (cblk_apply m c s j q _ rfl)

/-- At a point with contraction block 0 the buffer is left at the point's contribution. -/
theorem outsAt_first_apply (c : Dev nD) (t : Fin cfg0.N) (h0 : t.val % 16 = 0) (p : Fin 1024) (q : Fin 4096) :
    outsAt m c t.val t.isLt (ix2 p q) = contrib m c t p q := by
  rw [outsAt_first m c t h0]
  refine (congrFun (outFirst_eq c (grid0.coords t) (ms0 t) (hs0 t) (ms1 t) (hs1 t) (ms2 t) (hs2 t) (ms3 t) (hs3 t)
    ((hcond1 t).mpr h0) (fun h => (hcond2 t).mp h h0) (xblk m c t) (gblk m c t) (cblk m c t)) (ix2 p q)).trans ?_
  exact PayVal.pay1_apply (xblk m c t) (gblk m c t) (cblk m c t) p q

/-- At any other point it is left at what the point before left plus the point's contribution. -/
theorem outsAt_next_apply (c : Dev nD) (t : Fin cfg0.N) (h0 : ¬t.val % 16 = 0) (p : Fin 1024) (q : Fin 4096) :
    outsAt m c t.val t.isLt (ix2 p q)
      = outsAt m c (t.val - 1) (Nat.lt_of_le_of_lt (Nat.sub_le _ _) t.isLt) (ix2 p q) + contrib m c t p q := by
  rw [outsAt_next m c t h0]
  refine (congrFun (outNext_eq c (grid0.coords t) (ms0 t) (hs0 t) (ms1 t) (hs1 t) (ms2 t) (hs2 t) (ms3 t) (hs3 t)
    (fun h => h0 ((hcond1 t).mp h)) ((hcond2 t).mpr h0) (xblk m c t) (gblk m c t) (cblk m c t)
    (outsAt m c (t.val - 1) (Nat.lt_of_le_of_lt (Nat.sub_le _ _) t.isLt))) (ix2 p q)).trans ?_
  exact PayVal.pay2_apply (xblk m c t) (gblk m c t) (cblk m c t)
    (outsAt m c (t.val - 1) (Nat.lt_of_le_of_lt (Nat.sub_le _ _) t.isLt)) p q

/-! ## The running sum -/

/-- The buffer's entry (p, q) after step s, and step s's contribution there, as functions of the step's number. -/
def accN (c : Dev nD) (p : Fin 1024) (q : Fin 4096) (s : ℕ) : EReal :=
  if h : s < cfg0.N then outsAt m c s h (ix2 p q) else 0
def termN (c : Dev nD) (p : Fin 1024) (q : Fin 4096) (s : ℕ) : EReal :=
  if h : s < cfg0.N then contrib m c ⟨s, h⟩ p q else 0

/-- After point t the buffer holds the sum of the contributions since the last reset: points t - t % 16 … t. -/
theorem acc_sum (c : Dev nD) (p : Fin 1024) (q : Fin 4096) (t : Fin cfg0.N) :
    outsAt m c t.val t.isLt (ix2 p q) = ∑ j ∈ Finset.range (t.val % 16 + 1), termN m c p q (t.val - t.val % 16 + j) := by
  have h := Cert.SumLib.acc_closed_lt 16 cfg0.N (by norm_num) (accN m c p q) (termN m c p q)
    (fun s hs hz => by
      simp only [accN, termN, dif_pos hs]
      exact outsAt_first_apply m c ⟨s, hs⟩ hz p q)
    (fun s hs hz => by
      have hs' : s - 1 < cfg0.N := Nat.lt_of_le_of_lt (Nat.sub_le _ _) hs
      simp only [accN, termN, dif_pos hs, dif_pos hs']
      exact outsAt_next_apply m c ⟨s, hs⟩ hz p q)
    t.val t.isLt
  simp only [accN, dif_pos t.isLt] at h
  exact h

/-- A sum over 4096 rows as the sum over 16 blocks of 256 rows. -/
theorem sum_16x256 {M : Type} [AddCommMonoid M] (f : Fin 4096 → M) :
    ∑ n : Fin 4096, f n = ∑ kb : Fin 16, ∑ j : Fin 256, f ⟨256 * kb.val + j.val, by have := kb.isLt; have := j.isLt; omega⟩ :=
  Cert.SumLib.sum_blocks 16 256 f fun kb j => by have := kb.isLt; have := j.isLt; omega

/-- After the last contraction block the buffer's entry (p, q) is the specification's entry (1024·(t / 16) + p, q). -/
theorem outsAt_last (c : Dev nD) (t : Fin cfg0.N) (h15 : t.val % 16 = 15) (p : Fin 1024) (q : Fin 4096) (r : Fin 4096)
    (hr : r.val = 1024 * (t.val / 16) + p.val) :
    outsAt m c t.val t.isLt (ix2 p q) = Cert.Spec.G (xarr m c) (garr m c) (carr m c) (ix2 r q) := by
  have hN : cfg0.N = 64 := N_0
  have ht : t.val < 64 := lt_of_lt_of_eq t.isLt hN
  rw [acc_sum m c p q t, h15]
  show ∑ kb ∈ Finset.range 16, termN m c p q (t.val - 15 + kb) = ∑ n : Fin 4096, Cert.Spec.kst (xarr m c) (garr m c) r n * carr m c (ix2 n q)
  rw [Finset.sum_range, sum_16x256]
  refine Finset.sum_congr rfl fun kb _ => ?_
  have hk : kb.val < 16 := kb.isLt
  have hs : t.val - 15 + kb.val < cfg0.N := by omega
  have e : (t.val - 15 + kb.val) % 16 = kb.val := by omega
  simp only [termN, dif_pos hs]
  rw [contrib_eq m c ⟨t.val - 15 + kb.val, hs⟩ p q r (by show r.val = 1024 * ((t.val - 15 + kb.val) / 16) + p.val; omega)]
  refine Finset.sum_congr rfl fun j _ => ?_
  have ef : (⟨256 * ((t.val - 15 + kb.val) % 16) + j.val, by have := j.isLt; omega⟩ : Fin 4096)
      = ⟨256 * kb.val + j.val, by have := j.isLt; omega⟩ := Fin.ext (by show 256 * ((t.val - 15 + kb.val) % 16) + j.val = 256 * kb.val + j.val; rw [e])
  show Cert.Spec.kst (xarr m c) (garr m c) r ⟨256 * ((t.val - 15 + kb.val) % 16) + j.val, _⟩ * carr m c (ix2 ⟨256 * ((t.val - 15 + kb.val) % 16) + j.val, _⟩ q) = _
  rw [ef]

/-! ## From the blocks to the array -/

/-- What a point that writes back writes is its block of the specification's function. -/
theorem flushed_eq (c : Dev nD) (t : Fin cfg0.N) (hf : (cfg0.win 3).flush t = true) :
    (dats m 0 c).flushed 3 t = ((cfg0.win 3).blk t).view.read (Elt Ideal) (Cert.Spec.G (xarr m c) (garr m c) (carr m c)) := by
  have hN : cfg0.N = 64 := N_0
  have ht : t.val < 64 := lt_of_lt_of_eq t.isLt hN
  have h15 : t.val % 16 = 15 := (flush0_3 t).mp hf
  obtain ⟨-, -, -, -, -, -, e6, e7⟩ := idx_facts t
  show (cfg0.win 3).cut (grid0.coords t) ((dats m 0 c).after 3 t) = _
  rw [after_3]
  funext y
  obtain ⟨p, q, rfl⟩ : ∃ (p : Fin 1024) (q : Fin 4096), y = ix2 p q := ⟨y 0, y 1, eq_ix2 y⟩
  show outsAt m c t.val t.isLt (ix2 p q) = Cert.Spec.G (xarr m c) (garr m c) (carr m c) (((cfg0.win 3).blk t).view.emb (ix2 p q))
  have hemb : ((cfg0.win 3).blk t).view.emb (ix2 p q) = ix2 (⟨1024 * (t.val / 16) + p.val, by have := p.isLt; omega⟩ : Fin 4096) q := by
    funext a
    apply Fin.ext
    match a with
    | ⟨0, _⟩ => show win0_3.index t (0 : Fin 2) * 1024 + 1 * p.val = 1024 * (t.val / 16) + p.val; rw [e6]; omega
    | ⟨1, _⟩ => show win0_3.index t (1 : Fin 2) * 4096 + 1 * q.val = q.val; rw [e7]; omega
  rw [hemb]
  exact outsAt_last m c t h15 p q _ rfl

/-- An index of the result is in point t's block iff each coordinate is in the block's range on its axis. -/
theorem mem_blk (t : Fin cfg0.N) (i : S4096x4096.Idx) :
    i ∈ ((cfg0.win 3).blk t).view.set ↔ ∀ a : Fin 2, win0_3.index t a * S1024x4096.size a ≤ (i a).val
      ∧ (i a).val < win0_3.index t a * S1024x4096.size a + S1024x4096.size a := by
  show i ∈ ((View.whole main_v0).slice (win0_3.rect t)).set ↔ _
  rw [View.set_slice_whole, Rect.mem_set_unit]
  exact Iff.rfl

/-- Every index of the result lies in the block some point writes back: row r in that of point 16·(r / 1024) + 15. -/
theorem cover (i : S4096x4096.Idx) : ∃ t : Fin cfg0.N, (cfg0.win 3).flush t = true ∧ i ∈ ((cfg0.win 3).blk t).view.set := by
  have hN : cfg0.N = 64 := N_0
  have hi0 : (i 0).val < 4096 := (i 0).isLt
  have hi1 : (i 1).val < 4096 := (i 1).isLt
  have htl : 16 * ((i 0).val / 1024) + 15 < cfg0.N := by omega
  refine ⟨⟨16 * ((i 0).val / 1024) + 15, htl⟩, (flush0_3 _).mpr (by show (16 * ((i 0).val / 1024) + 15) % 16 = 15; omega), ?_⟩
  rw [mem_blk]
  obtain ⟨-, -, -, -, -, -, e6, e7⟩ := idx_facts ⟨16 * ((i 0).val / 1024) + 15, htl⟩
  have e6' : win0_3.index ⟨16 * ((i 0).val / 1024) + 15, htl⟩ (0 : Fin 2) = (16 * ((i 0).val / 1024) + 15) / 16 := e6
  intro a
  match a with
  | ⟨0, _⟩ =>
    show win0_3.index ⟨16 * ((i 0).val / 1024) + 15, htl⟩ (0 : Fin 2) * 1024 ≤ (i 0).val
      ∧ (i 0).val < win0_3.index ⟨16 * ((i 0).val / 1024) + 15, htl⟩ (0 : Fin 2) * 1024 + 1024
    rw [e6']; omega
  | ⟨1, _⟩ =>
    show win0_3.index ⟨16 * ((i 0).val / 1024) + 15, htl⟩ (1 : Fin 2) * 4096 ≤ (i 1).val
      ∧ (i 1).val < win0_3.index ⟨16 * ((i 0).val / 1024) + 15, htl⟩ (1 : Fin 2) * 4096 + 4096
    rw [e7]; omega

/-- The result array after the run is the specification's function of the arrays as the region finds them. -/
theorem final (c : Dev nD) : (dats m 0 c).arrAt 3 cfg0.N = Cert.Spec.G (xarr m c) (garr m c) (carr m c) :=
  (dats m 0 c).arrAt_eq_of_cover 3 (Cert.Spec.G (xarr m c) (garr m c) (carr m c)) (fun t hf => flushed_eq m c t hf) cover

/-- The run, read: the result array at the specification's function of the launched arguments, the arguments unchanged. -/
theorem run : θ_run defs (onTc (τ := τ) (main (F := Ideal))) ⟨m, fun _ => 0, ρ⟩ fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.AccVal

end
-- ==== Proof.RefValue.lean ====
/-
  The reference's result, entry by entry, is the specification's function of the three argument arrays.

  The reference is read one operation at a time. The two row sums of squares are the specification's squared
  lengths (their initial word is the extended real zero), the first contraction is the inner product of a row of x
  with a row of g (read through the transposition), the elementwise chain after them is the kernel entry (the
  division by the word of one changes nothing, at the infinities too), and the last contraction is the sum over the
  rows of g.
-/
import proofs.«141656_g6064493822376_cont_9to1c4b_109_3_alg».proof.Proof.Gen.ReferenceIdeal.Read
import proofs.«141656_g6064493822376_cont_9to1c4b_109_3_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The binary word 0x3F800000 denotes the real one. -/
theorem ofBits_one : Ideal.ofBits .f32 0x3F800000#32 = ((1 : ℝ) : EReal) := by
  simp [Ideal.ofBits, Ideal.ieee, -EReal.coe_mul]; norm_num

/-- Dividing by the word of one changes no extended real, the infinities included. -/
theorem div_one_word (y : EReal) : Ideal.div y (Ideal.ofBits .f32 0x3F800000#32) = y := by
  rw [ofBits_one, Ideal.div_coe (by norm_num : (1 : ℝ) ≠ 0)]
  simp

/-- The row sums of squares of x: entry r is the squared length of row r. -/
theorem v1_eq (x : (⟨S4096x8, .f32⟩ : BufTy).Contents (Elt Ideal)) (s : S4096.Idx) :
    val_main_v1 (F := Ideal) x s = Cert.Spec.sqn x (s 0) := by
  rw [val_main_v1_apply, val_main_cst_apply, Ideal.ofBits_def, Ideal.ofBits_zero_f32, zero_add]
  unfold Cert.Spec.sqn
  refine Finset.sum_congr rfl fun k _ => ?_
  rw [val_main_v0_apply, Ideal.mulf_def]
  have e : idx_main_v1 s k = ix2 (s 0) k :=
    funext fun a => Fin.ext (by match a with | ⟨0, _⟩ => rfl | ⟨1, _⟩ => rfl)
  rw [e]
  rfl

/-- The row sums of squares of g: entry j is the squared length of row j. -/
theorem v10_eq (g : (⟨S4096x8, .f32⟩ : BufTy).Contents (Elt Ideal)) (s : S4096.Idx) :
    val_main_v10 (F := Ideal) g s = Cert.Spec.sqn g (s 0) := by
  rw [val_main_v10_apply, val_main_cst_1_apply, Ideal.ofBits_def, Ideal.ofBits_zero_f32, zero_add]
  unfold Cert.Spec.sqn
  refine Finset.sum_congr rfl fun k _ => ?_
  rw [val_main_v9_apply, Ideal.mulf_def]
  have e : idx_main_v10 s k = ix2 (s 0) k :=
    funext fun a => Fin.ext (by match a with | ⟨0, _⟩ => rfl | ⟨1, _⟩ => rfl)
  rw [e]
  rfl

/-- The first contraction: entry (r, j) is the inner product of row r of x with row j of g. -/
theorem v4_eq (x g : (⟨S4096x8, .f32⟩ : BufTy).Contents (Elt Ideal)) (i : S4096x4096.Idx) :
    val_main_v4 (F := Ideal) x g i = Cert.Spec.cross x g (i 0) (i 1) := by
  rw [val_main_v4_apply]
  unfold Cert.Spec.cross
  refine Finset.sum_congr rfl fun k _ => ?_
  rw [val_main_v3_apply]
  have el : lidx_main_v4 i k = ix2 (i 0) k :=
    funext fun a => Fin.ext (by match a with | ⟨0, _⟩ => rfl | ⟨1, _⟩ => rfl)
  have er : idx_main_v3 (ridx_main_v4 i k) = ix2 (i 1) k :=
    funext fun a => Fin.ext (by match a with | ⟨0, _⟩ => rfl | ⟨1, _⟩ => rfl)
  rw [el, er]
  rfl

/-- The elementwise chain: entry (r, j) is the kernel entry (r, j). -/
theorem v20_eq (x g : (⟨S4096x8, .f32⟩ : BufTy).Contents (Elt Ideal)) (i : S4096x4096.Idx) :
    val_main_v20 (F := Ideal) x g i = Cert.Spec.kst x g (i 0) (i 1) := by
  rw [val_main_v20_apply, val_main_v19_apply, val_main_v17_apply, val_main_v18_apply, val_main_cst_4_apply,
    val_main_v16_apply, val_main_cst_3_apply, val_main_v15_apply, val_main_v14_apply, val_main_cst_2_apply,
    val_main_v13_apply, val_main_v8_apply, val_main_v12_apply, val_main_v11_apply, val_main_v7_apply,
    val_main_v2_apply, val_main_v6_apply, val_main_v5_apply, val_main_cst_0_apply, v1_eq, v10_eq, v4_eq]
  simp only [Ideal.hostUnary_exp_def, Ideal.hostDivf_def, Ideal.mulf_def, Ideal.maximumf_def, Ideal.addf_def,
    Ideal.subf_def, Ideal.ofBits_def, div_one_word]
  rfl

theorem ref_is_G (x g : (⟨Cert.ReferenceIdeal.S4096x8, .f32⟩ : BufTy).Contents (Elt Ideal))
    (C : (⟨Cert.ReferenceIdeal.S4096x4096, .f32⟩ : BufTy).Contents (Elt Ideal)) :
    Cert.ReferenceIdeal.Read.val_main_v21 (F := Ideal) x g C = Cert.Spec.G x g C := by
  funext i
  rw [val_main_v21_apply]
  unfold Cert.Spec.G
  refine Finset.sum_congr rfl fun k _ => ?_
  rw [v20_eq]
  have er : ridx_main_v21 i k = ix2 k (i 1) :=
    funext fun a => Fin.ext (by match a with | ⟨0, _⟩ => rfl | ⟨1, _⟩ => rfl)
  rw [er]
  rfl

end Cert.ReferenceIdeal.RefValue

end
-- ==== Proof.lean ====
/-
  The kernel computes  phi = exp(-½ · sqdist(x, g)) · C  a tile at a time: for each block of 1024 rows of x it runs over
  the sixteen blocks of 256 rows of g, forms the [1024, 256] tile of kernel entries
  exp(-½ · max(|x_r|² - 2·(x_r · g_j) + |g_j|², 0))  on the fly, multiplies it with the matching 256 rows of C and
  accumulates the products in the output's block (stored at the first contraction block, added to at the others). The
  reference forms the whole [4096, 4096] array of kernel entries, divides the exponent by the unit length scale 1, and
  multiplies once with C.

  On the extended reals both results are, at entry (r, v),  ∑ j < 4096, kst x g r j · C (j, v)  (Spec.lean):
    · the reference, operation by operation (RefValue.lean): dividing by the word 1.0 changes no extended real;
    · the kernel: one point's contribution is the partial sum over its 256 rows (PayVal.lean, over the body's payload), the
      output's buffer after the sixteenth contraction block holds the sum of the sixteen partial sums, which is the sum over
      all 4096 rows regrouped — addition of extended reals is commutative and associative, nothing else is used, so the
      precondition is never opened — and the four row blocks written back tile the result (AccVal.lean).
  The three frames: the two kernel programs run by the same argument at the word level and at the ideal values
  (KBody.lean, KIBody.lean: the body's two branches, the running contents of the output's buffer point by point, the
  pipeline's obligation); the reference's frame is its run with the result dropped. The idealization rewrote nothing.
-/
import proofs.«141656_g6064493822376_cont_9to1c4b_109_3_alg».proof.Defs
import proofs.«141656_g6064493822376_cont_9to1c4b_109_3_alg».proof.Proof.Gen.Kernel
import proofs.«141656_g6064493822376_cont_9to1c4b_109_3_alg».proof.Proof.Gen.KernelIdeal
import proofs.«141656_g6064493822376_cont_9to1c4b_109_3_alg».proof.Proof.Gen.ReferenceIdeal
import proofs.«141656_g6064493822376_cont_9to1c4b_109_3_alg».proof.Proof.Gen.Pre_finite_inputs
import proofs.«141656_g6064493822376_cont_9to1c4b_109_3_alg».proof.Proof.KBody
import proofs.«141656_g6064493822376_cont_9to1c4b_109_3_alg».proof.Proof.AccVal
import proofs.«141656_g6064493822376_cont_9to1c4b_109_3_alg».proof.Proof.RefValue
import Idealize.ShloMosaic.Adequacy
import Idealize.ShloMosaic.Init

noncomputable section

namespace Cert.Proof

open Idealize.ShloMosaic Idealize.SL.Sem

/-- The kernel as printed runs to the end, faults nowhere and keeps its arguments. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's function of the arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AccVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
